-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S16x64x1024 : Shape := ⟨3, ![16, 64, 1024]⟩
abbrev S16x64 : Shape := ⟨2, ![16, 64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S16x64 .f32) (main_arg5 : FVec F S16x64 .f32) (main_arg6 : FVec F S16x64 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : FVec F S2x2048x1024 .f32) (main_arg1 : FVec F S16x64x1024 .f32) (main_arg2 : FVec F S16x64x1024 .f32) (main_arg3 : FVec F S16x64x1024 .f32) (main_arg4 : FVec F S16x64 .f32) (main_arg5 : FVec F S16x64 .f32) (main_arg6 : FVec F S16x64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S16x64x1024 .f32 := Host.absf main_arg1
  let main_cst_0 : FVec F S_ .f32 := constant S_ .f32 0x7F800000#32
  let main_v5 : FVec F S16x64x1024 .f32 := broadcastInDim S16x64x1024 ![] bcast_S_S16x64x1024 main_cst_0
  let main_v6 : IVec S16x64x1024 1 := cmpf .olt main_v4 main_v5
  let main_c_1 : IVec S_ 1 := constantI S_ 1 1#1
  let main_v7 : IVec S_ 1 := (fun x v => Host.reduce IntOp.andi x v reducesTo_S16x64x1024_S_d0_1_2 h_S_) main_v6 main_c_1
  let main_v8 : IVec S_ 1 := andi main_v3 main_v7
  let main_v9 : FVec F S16x64x1024 .f32 := Host.absf main_arg2
  let main_cst_2 : FVec F S_ .f32 := constant S_ .f32 0x7F800000#32
  let main_v10 : FVec F S16x64x1024 .f32 := broadcastInDim S16x64x1024 ![] bcast_S_S16x64x1024 main_cst_2
  let main_v11 : IVec S16x64x1024 1 := cmpf .olt main_v9 main_v10
  let main_c_3 : IVec S_ 1 := constantI S_ 1 1#1
  let main_v12 : IVec S_ 1 := (fun x v => Host.reduce IntOp.andi x v reducesTo_S16x64x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_arg6 main_v13 main_v16
-- ==== Kernel.lean ====
abbrev S2x2048x1024 : Shape := ⟨3, ![2, 2048, 1024]⟩
abbrev S16x64x1024 : Shape := ⟨3, ![16, 64, 1024]⟩
abbrev S16x64 : Shape := ⟨2, ![16, 64]⟩
abbrev S16x1x64 : Shape := ⟨3, ![16, 1, 64]⟩
abbrev S2x16x2048x64 : Shape := ⟨4, ![2, 16, 2048, 64]⟩
abbrev S1x2048x1024 : Shape := ⟨3, ![1, 2048, 1024]⟩
abbrev S1x64x1024 : Shape := ⟨3, ![1, 64, 1024]⟩
abbrev S1x1x64 : Shape := ⟨3, ![1, 1, 64]⟩
abbrev S1x1x2048x64 : Shape := ⟨4, ![1, 1, 2048, 64]⟩
abbrev S2048x1024 : Shape := ⟨2, ![2048, 1024]⟩
abbrev S64x1024 : Shape := ⟨2, ![64, 1024]⟩
abbrev S64 : Shape := ⟨1, ![64]⟩
abbrev S2048x64 : Shape := ⟨2, ![2048, 64]⟩
abbrev S1x64 : Shape := ⟨2, ![1, 64]⟩
abbrev S64x64 : Shape := ⟨2, ![64, 64]⟩
abbrev S2x2048x16x64 : Shape := ⟨4, ![2, 2048, 16, 64]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S2x2048x1024, .bf16⟩
  | .hbm, ⟨8, _⟩ => ⟨S16x64x1024, .bf16⟩
  | .hbm, ⟨9, _⟩ => ⟨S16x64x1024, .bf16⟩
  | .hbm, ⟨10, _⟩ => ⟨S16x64x1024, .bf16⟩
  | .hbm, ⟨11, _⟩ => ⟨S16x1x64, .f32⟩
  | .hbm, ⟨12, _⟩ => ⟨S16x1x64, .f32⟩
  | .hbm, ⟨13, _⟩ => ⟨S16x1x64, .f32⟩
  | .hbm, ⟨14, _⟩ => ⟨S2x16x2048x64, .f32⟩
  | .hbm, ⟨15, _⟩ => ⟨S2x2048x16x64, .f32⟩
  | .hbm, ⟨16, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x2048x64, .f32⟩
  | .local _ .vmem, ⟨15, _⟩ => ⟨S1x1x2048x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  bcast_S16x64_S16x1x64_0_2 : S16x64.BroadcastsInDim S16x1x64 (![0, 2] : Fin 2 → Fin S16x1x64.rank)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S2048x64 : S1x64.Broadcasts S2048x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  shapeCasts_S2048x64_S1x1x2048x64 : S2048x64.ShapeCasts S1x1x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2048x1024_S64x1024_S2048x64_1_1_0_0_n_n_wf : DotDims.WF S2048x1024 S64x1024 S2048x64 [1] [1] [0] [0] [] []
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .bf16 = 32 ∨ (Rect.block (s := S2x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S16x64x1024.size a
  hwx0_1 : ∀ i : grid0.Coords, EltTy.bits .bf16 = 32 ∨ (Rect.block (s := S16x64x1024) S1x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S16x64x1024.size a
  hwx0_2 : ∀ i : grid0.Coords, EltTy.bits .bf16 = 32 ∨ (Rect.block (s := S16x64x1024) S1x64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S16x64x1024.size a
  hwx0_3 : ∀ i : grid0.Coords, EltTy.bits .bf16 = 32 ∨ (Rect.block (s := S16x64x1024) S1x64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S16x1x64.size a
  hwx0_5 : ∀ i : grid0.Coords, EltTy.bits .f32 = 32 ∨ (Rect.block (s := S16x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S16x1x64.size a
  hwx0_6 : ∀ i : grid0.Coords, EltTy.bits .f32 = 32 ∨ (Rect.block (s := S16x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048x64.size a ≤ S2x16x2048x64.size a
  hwx0_7 : ∀ i : grid0.Coords, EltTy.bits .f32 = 32 ∨ (Rect.block (s := S2x16x2048x64) S1x1x2048x64.size (cc0_transform_7 i) (hinb0_7 i)).WholeWords (EltTy.packing .f32)

variable [Facts₀]

def dot_S2048x1024_S64x1024_S2048x64_1_1_0_0_n_n : DotDims S2048x1024 S64x1024 S2048x64 where
  lhsContracting := [1]
  rhsContracting := [1]
  lhsNonContracting := [0]
  rhsNonContracting := [0]
  lhsBatch := []
  rhsBatch := []
  wf := dot_S2048x1024_S64x1024_S2048x64_1_1_0_0_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1x2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S16x64x1024 : Shape := ⟨3, ![16, 64, 1024]⟩
abbrev S16x64 : Shape := ⟨2, ![16, 64]⟩
abbrev S16x64x2x2048 : Shape := ⟨4, ![16, 64, 2, 2048]⟩
abbrev S2x16x2048x64 : Shape := ⟨4, ![2, 16, 2048, 64]⟩
abbrev S1x16x1x64 : Shape := ⟨4, ![1, 16, 1, 64]⟩
abbrev S2x16x2048x2048 : Shape := ⟨4, ![2, 16, 2048, 2048]⟩
abbrev S_ : Shape := ⟨0, ![]⟩
abbrev S2x2048x16x64 : Shape := ⟨4, ![2, 2048, 16, 64]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x64x2x2048, .f32⟩
  | .hbm, ⟨8, _⟩ => ⟨S2x16x2048x64, .f32⟩
  | .hbm, ⟨9, _⟩ => ⟨S1x16x1x64, .f32⟩
  | .hbm, ⟨10, _⟩ => ⟨S2x16x2048x64, .f32⟩
  | .hbm, ⟨11, _⟩ => ⟨S2x16x2048x64, .f32⟩
  | .hbm, ⟨12, _⟩ => ⟨S16x64x2x2048, .f32⟩
  | .hbm, ⟨13, _⟩ => ⟨S2x16x2048x64, .f32⟩
  | .hbm, ⟨14, _⟩ => ⟨S1x16x1x64, .f32⟩
  | .hbm, ⟨15, _⟩ => ⟨S2x16x2048x64, .f32⟩
  | .hbm, ⟨16, _⟩ => ⟨S2x16x2048x64, .f32⟩
  | .hbm, ⟨17, _⟩ => ⟨S16x64x2x2048, .f32⟩
  | .hbm, ⟨18, _⟩ => ⟨S2x16x2048x64, .f32⟩
  | .hbm, ⟨19, _⟩ => ⟨S1x16x1x64, .f32⟩
  | .hbm, ⟨20, _⟩ => ⟨S2x16x2048x64, .f32⟩
  | .hbm, ⟨21, _⟩ => ⟨S2x16x2048x64, .f32⟩
  | .hbm, ⟨22, _⟩ => ⟨S2x16x2048x2048, .f32⟩
  | .hbm, ⟨23, _⟩ => ⟨S_, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | .hbm, ⟨27, _⟩ => ⟨S2x2048x16x64, .f32⟩
  | .hbm, ⟨28, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S16x64x2x2048_S2x16x2048x64_2_0_3_1 : S16x64x2x2048.Transposes [2, 0, 3, 1] S2x16x2048x64
  bcast_S16x64_S1x16x1x64_1_3 : S16x64.BroadcastsInDim S1x16x1x64 (![1, 3] : Fin 2 → Fin S1x16x1x64.rank)
  bcast_S1x16x1x64_S2x16x2048x64_0_1_2_3 : S1x16x1x64.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S16x64x1024_S2x2048x1024_S16x64x2x2048_2_2_01_01_n_n_wf : DotDims.WF S16x64x1024 S2x2048x1024 S16x64x2x2048 [2] [2] [0, 1] [0, 1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S16x64x1024_S2x2048x1024_S16x64x2x2048_2_2_01_01_n_n : DotDims S16x64x1024 S2x2048x1024 S16x64x2x2048 where
  lhsContracting := [2]
  rhsContracting := [2]
  lhsNonContracting := [0, 1]
  rhsNonContracting := [0, 1]
  lhsBatch := []
  rhsBatch := []
  wf := dot_S16x64x1024_S2x2048x1024_S16x64x2x2048_2_2_01_01_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Linear attention without a softmax, per batch entry `n` and head `h`, on the extended reals.

  With `q, k, v : [2048, 64]` the per-head projections `x W^T + b` of one batch entry, the result is
  `out[s, e] = sum_t ((sum_j q[s, j] * k[t, j]) * c) * v[t, e]`  (scores first, then the values), which over the
  reals is also `(sum_j q[s, j] * (sum_t k[t, j] * v[t, e])) * c`  (the 64 x 64 matrix `k^T v` first): the sums
  are finite, so the product distributes over them and the two sums commute. On the extended reals distributing
  needs every factor to be a real number, so the law is stated for real-valued `q, k, v, c`; the projections
  of real inputs are real.
-/
import Idealize.ShloMosaic.PureOps.Ideal
import Idealize.ShloMosaic.Lib.ValueIdx
import Mathlib.Data.EReal.Operations
import Mathlib.Algebra.BigOperators.Ring.Finset
import Mathlib.Tactic.Ring

noncomputable section

namespace Cert.Proof.Attn

open Idealize.ShloMosaic Idealize.ShloMosaic.ValueIdx

/-- The activations `[batch, token, feature]`. -/
abbrev SX : Shape := ⟨3, ![2, 2048, 1024]⟩
/-- One projection's weights `[head, out feature, feature]`. -/
abbrev SW : Shape := ⟨3, ![16, 64, 1024]⟩
/-- One projection's bias `[head, out feature]`. -/
abbrev SB : Shape := ⟨2, ![16, 64]⟩
/-- The per-head result `[batch, head, token, out feature]`. -/
abbrev SO : Shape := ⟨4, ![2, 16, 2048, 64]⟩

/-- A finite sum of real numbers, embedded, is the sum of the embedded terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The projection of one token by one head -/

/-- `(x W^T + b)[n, h, s, e] = sum_d x[n, s, d] * W[h, e, d] + b[h, e]`. -/
def proj (x : SX.Idx → EReal) (W : SW.Idx → EReal) (b : SB.Idx → EReal)
    (n : Fin 2) (h : Fin 16) (s : Fin 2048) (e : Fin 64) : EReal :=
  (∑ d : Fin 1024, x (ix3 n s d) * W (ix3 h e d)) + b (ix2 h e)

/-- The projection of real data is real. -/
theorem proj_real {x : SX.Idx → EReal} {W : SW.Idx → EReal} {b : SB.Idx → EReal}
    (hx : ∀ i, ∃ r : ℝ, x i = (r : EReal)) (hW : ∀ i, ∃ r : ℝ, W i = (r : EReal)) (hb : ∀ i, ∃ r : ℝ, b i = (r : EReal))
    (n : Fin 2) (h : Fin 16) (s : Fin 2048) (e : Fin 64) : ∃ r : ℝ, proj x W b n h s e = (r : EReal) := by
  choose x' hx' using hx
  choose W' hW' using hW
  choose b' hb' using hb
  refine ⟨(∑ d : Fin 1024, x' (ix3 n s d) * W' (ix3 h e d)) + b' (ix2 h e), ?_⟩
  unfold proj
  simp only [hx', hW', hb', ← EReal.coe_mul, ← coe_sum, ← EReal.coe_add]

/-! ## The two arrangements of the product, and the law between them -/

/-- The 64 x 64 matrix `k^T v` first: `(sum_j q[s, j] * (sum_t k[t, j] * v[t, e])) * c`. -/
def mixK (q k v : Fin 2048 → Fin 64 → EReal) (c : EReal) (s : Fin 2048) (e : Fin 64) : EReal :=
  (∑ j : Fin 64, q s j * ∑ t : Fin 2048, k t j * v t e) * c

/-- The scores first: `sum_t ((sum_j q[s, j] * k[t, j]) * c) * v[t, e]`. -/
def mixR (q k v : Fin 2048 → Fin 64 → EReal) (c : EReal) (s : Fin 2048) (e : Fin 64) : EReal :=
  ∑ t : Fin 2048, ((∑ j : Fin 64, q s j * k t j) * c) * v t e

/-- For real data the two arrangements agree: distribute the products over the finite sums and swap the sums. -/
theorem mixK_eq_mixR {q k v : Fin 2048 → Fin 64 → EReal} {c : EReal}
    (hq : ∀ s j, ∃ r : ℝ, q s j = (r : EReal)) (hk : ∀ t j, ∃ r : ℝ, k t j = (r : EReal))
    (hv : ∀ t e, ∃ r : ℝ, v t e = (r : EReal)) (hc : ∃ r : ℝ, c = (r : EReal)) (s : Fin 2048) (e : Fin 64) :
    mixK q k v c s e = mixR q k v c s e := by
  choose q' hq' using hq
  choose k' hk' using hk
  choose v' hv' using hv
  obtain ⟨c', rfl⟩ := hc
  unfold mixK mixR
  simp only [hq', hk', hv', ← EReal.coe_mul, ← coe_sum]
  refine congrArg _ ?_
  simp only [Finset.mul_sum, Finset.sum_mul]
  rw [Finset.sum_comm]
  exact Finset.sum_congr rfl fun t _ => Finset.sum_congr rfl fun j _ => by ring

/-! ## The scale -/

/-- The scale `64^(-1/2) = 1/8`, as both programs spell it: the binary32 word of `0.125`. -/
def scale : EReal := Ideal.ofBits .f32 0x3E000000#32

/-- The word denotes the real number `1/8`. -/
theorem scale_real : ∃ r : ℝ, scale = (r : EReal) :=
  ⟨(1 / 8 : ℝ), by unfold scale; simp [Ideal.ofBits, Ideal.ieee, -EReal.coe_mul]; norm_num⟩

/-! ## The whole result, per batch entry and head -/

/-- The result with `k^T v` first, as a function of the seven arrays. -/
def outK (x : SX.Idx → EReal) (Wq Wk Wv : SW.Idx → EReal) (bq bk bv : SB.Idx → EReal) : SO.Idx → EReal := fun i =>
  mixK (proj x Wq bq (i 0) (i 1)) (proj x Wk bk (i 0) (i 1)) (proj x Wv bv (i 0) (i 1)) scale (i 2) (i 3)

/-- The result with the scores first. -/
def outR (x : SX.Idx → EReal) (Wq Wk Wv : SW.Idx → EReal) (bq bk bv : SB.Idx → EReal) : SO.Idx → EReal := fun i =>
  mixR (proj x Wq bq (i 0) (i 1)) (proj x Wk bk (i 0) (i 1)) (proj x Wv bv (i 0) (i 1)) scale (i 2) (i 3)

/-- On real inputs the two are one array. -/
theorem outK_eq_outR {x : SX.Idx → EReal} {Wq Wk Wv : SW.Idx → EReal} {bq bk bv : SB.Idx → EReal}
    (hx : ∀ i, ∃ r : ℝ, x i = (r : EReal))
    (hWq : ∀ i, ∃ r : ℝ, Wq i = (r : EReal)) (hWk : ∀ i, ∃ r : ℝ, Wk i = (r : EReal)) (hWv : ∀ i, ∃ r : ℝ, Wv i = (r : EReal))
    (hbq : ∀ i, ∃ r : ℝ, bq i = (r : EReal)) (hbk : ∀ i, ∃ r : ℝ, bk i = (r : EReal)) (hbv : ∀ i, ∃ r : ℝ, bv i = (r : EReal)) :
    outK x Wq Wk Wv bq bk bv = outR x Wq Wk Wv bq bk bv :=
  funext fun i => mixK_eq_mixR (fun s j => proj_real hx hWq hbq (i 0) (i 1) s j) (fun t j => proj_real hx hWk hbk (i 0) (i 1) t j)
    (fun t e => proj_real hx hWv hbv (i 0) (i 1) t e) scale_real (i 2) (i 3)

end Cert.Proof.Attn

end
-- ==== Proof.FiniteInputs.lean ====
/-
  From the precondition to real-valued inputs. The precondition is a conjunction of seven bits, one per input
  array; each bit is the conjunction over every index of that array of the comparison |x i| < +∞, taken in the
  extended reals with |x| = max x (-x). If the whole conjunction is 1 then each bit is 1, then each comparison
  is true, and an extended real whose absolute value is strictly below +∞ is neither -∞ nor +∞: it is a real.
-/
import proofs.«111868_j54915451847175_1_alg».proof.Pre_finite_inputs
import proofs.«111868_j54915451847175_1_alg».proof.Proof.Gen.Pre_finite_inputs
import Idealize.ShloMosaic.PureOps.Ideal
import Idealize.ShloMosaic.Lib.ReduceAll
import Idealize.ShloMosaic.Lib.ValueIdx
import Mathlib.Data.EReal.Basic

namespace Cert.Proof.FiniteInputs
open Idealize.ShloMosaic

/-- The result shape of a reduction over all axes has exactly one index. -/
instance : Subsingleton Cert.Pre_finite_inputs.S_.Idx := ⟨fun a b => funext fun d => d.elim0⟩

/-- The f32 pattern with every exponent bit set and a zero fraction denotes +∞. -/
theorem ofBits_inf : Ideal.ofBits .f32 0x7F800000#32 = (⊤ : EReal) := by
  simp [Ideal.ofBits, Ideal.ieee]

/-- An extended real whose absolute value max x (-x) lies strictly below +∞ is a real number:
    at -∞ and at +∞ the absolute value is +∞ itself. -/
theorem real_of_abs_lt_top (x : EReal) (h : max x (-x) < ⊤) : ∃ r : ℝ, x = (r : EReal) := by
  induction x with
  | bot => simp at h
  | coe r => exact ⟨r, rfl⟩
  | top => simp at h

/-- One conjunct of the precondition: if the conjunction over all indices of |x i| < +∞ is true,
    then every entry of x is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1)
    (i : s.Idx) : ∃ r : ℝ, x i = (r : EReal) := by
  -- the comparison at the index i came out true
  have hi := Host.reduce_andi_all _ _ hr hu ValueIdx.ix0 e i
  -- read elementwise: the comparison is the strict order of the extended reals against +∞
  have h2 : BitVec.ofBool (decide (max (x i) (-(x i)) < Ideal.ofBits .f32 0x7F800000#32)) = 1#1 := hi
  rw [ofBits_inf] at h2
  refine real_of_abs_lt_top (x i) ?_
  cases hd : decide (max (x i) (-(x i)) < (⊤ : EReal)) with
  | true => exact of_decide_eq_true hd
  | false => rw [hd] at h2; exact absurd h2 (by decide)

/-- Every entry of every input is a real number when the precondition holds. -/
theorem real_of_pre [Cert.Pre_finite_inputs.Facts]
    (x0 : FVec Ideal Cert.Pre_finite_inputs.S2x2048x1024 .f32)
    (x1 x2 x3 : FVec Ideal Cert.Pre_finite_inputs.S16x64x1024 .f32)
    (x4 x5 x6 : FVec Ideal Cert.Pre_finite_inputs.S16x64 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) := by
  -- the predicate's one result, at its one index
  have h0 := congrFun h ValueIdx.ix0
  dsimp only [Cert.Pre_finite_inputs.fn, Cert.Pre_finite_inputs.fn_part1] at h0
  -- a conjunction of seven bits is 1 exactly when each bit is 1
  simp only [Idealize.ShloMosaic.andi, IntOp.andi_eq_one] at h0
  obtain ⟨⟨⟨⟨⟨⟨e0, e1⟩, e2⟩, e3⟩, e4⟩, e5⟩, e6⟩ := h0
  exact ⟨real_of_all _ _ _ x0 e0, real_of_all _ _ _ x1 e1, real_of_all _ _ _ x2 e2, real_of_all _ _ _ x3 e3,
    real_of_all _ _ _ x4 e4, real_of_all _ _ _ x5 e5, real_of_all _ _ _ x6 e6⟩

end Cert.Proof.FiniteInputs
-- ==== Proof.KernelBlock.lean ====
/-
  What one grid point of the attention kernel leaves in its output block, read at an index.

  The body loads one batch entry's activations `x : [1, 2048, 1024]`, one head's three weight blocks
  `[1, 64, 1024]` and bias rows `[1, 1, 64]`, forms `q, k, v = x W^T + b` (three contractions over the 1024 features),
  the 64 x 64 matrix `k^T v` (a contraction over the 2048 tokens), `q (k^T v)` (a contraction over the 64 inner
  features), scales by `1/8` and stores the `[1, 1, 2048, 64]` block. On the extended reals every change of float
  format is the identity and a matrix product into a zero accumulator is the plain sum of products, so at `(s, e)` the
  block holds `(sum_j q[s, j] * (sum_t k[t, j] * v[t, e])) * (1/8)`.
-/
import proofs.«111868_j54915451847175_1_alg».proof.Proof.Gen.KernelIdeal.Frame
import proofs.«111868_j54915451847175_1_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Cert.Proof.Attn (mixK scale)

/-! ## The three contractions' operand indices, axis by axis -/

theorem lhs_feat_0 (i : S2048x64.Idx) (q : dot_S2048x1024_S64x1024_S2048x64_1_1_0_0_n_n.contr.Idx) :
    (dot_S2048x1024_S64x1024_S2048x64_1_1_0_0_n_n.lhsIdx i q 0).val = (i 0).val := by
  unfold DotDims.lhsIdx
  rw [dif_neg (show ¬(0 : Fin S2048x1024.rank) ∈ dot_S2048x1024_S64x1024_S2048x64_1_1_0_0_n_n.lhsBatch by decide), dif_pos (show (0 : Fin S2048x1024.rank) ∈ dot_S2048x1024_S64x1024_S2048x64_1_1_0_0_n_n.lhsNonContracting by decide)]
  rfl
theorem lhs_feat_1 (i : S2048x64.Idx) (q : dot_S2048x1024_S64x1024_S2048x64_1_1_0_0_n_n.contr.Idx) :
    (dot_S2048x1024_S64x1024_S2048x64_1_1_0_0_n_n.lhsIdx i q 1).val = (q ⟨0, by decide⟩).val :=
  dot_S2048x1024_S64x1024_S2048x64_1_1_0_0_n_n.lhsIdx_val_of_single rfl i q
theorem rhs_feat_0 (i : S2048x64.Idx) (q : dot_S2048x1024_S64x1024_S2048x64_1_1_0_0_n_n.contr.Idx) :
    (dot_S2048x1024_S64x1024_S2048x64_1_1_0_0_n_n.rhsIdx i q 0).val = (i 1).val := by
  unfold DotDims.rhsIdx
  rw [dif_neg (show ¬(0 : Fin S64x1024.rank) ∈ dot_S2048x1024_S64x1024_S2048x64_1_1_0_0_n_n.rhsBatch by decide), dif_pos (show (0 : Fin S64x1024.rank) ∈ dot_S2048x1024_S64x1024_S2048x64_1_1_0_0_n_n.rhsNonContracting by decide)]
  rfl
theorem rhs_feat_1 (i : S2048x64.Idx) (q : dot_S2048x1024_S64x1024_S2048x64_1_1_0_0_n_n.contr.Idx) :
    (dot_S2048x1024_S64x1024_S2048x64_1_1_0_0_n_n.rhsIdx i q 1).val = (q ⟨0, by decide⟩).val :=
  dot_S2048x1024_S64x1024_S2048x64_1_1_0_0_n_n.rhsIdx_val_of_single rfl i q

theorem lhs_tok_0 (i : S64x64.Idx) (q : dot_S2048x64_S2048x64_S64x64_0_0_1_1_n_n.contr.Idx) :
    (dot_S2048x64_S2048x64_S64x64_0_0_1_1_n_n.lhsIdx i q 0).val = (q ⟨0, by decide⟩).val :=
  dot_S2048x64_S2048x64_S64x64_0_0_1_1_n_n.lhsIdx_val_of_single rfl i q
theorem lhs_tok_1 (i : S64x64.Idx) (q : dot_S2048x64_S2048x64_S64x64_0_0_1_1_n_n.contr.Idx) :
    (dot_S2048x64_S2048x64_S64x64_0_0_1_1_n_n.lhsIdx i q 1).val = (i 0).val := by
  unfold DotDims.lhsIdx
  rw [dif_neg (show ¬(1 : Fin S2048x64.rank) ∈ dot_S2048x64_S2048x64_S64x64_0_0_1_1_n_n.lhsBatch by decide), dif_pos (show (1 : Fin S2048x64.rank) ∈ dot_S2048x64_S2048x64_S64x64_0_0_1_1_n_n.lhsNonContracting by decide)]
  rfl
theorem rhs_tok_0 (i : S64x64.Idx) (q : dot_S2048x64_S2048x64_S64x64_0_0_1_1_n_n.contr.Idx) :
    (dot_S2048x64_S2048x64_S64x64_0_0_1_1_n_n.rhsIdx i q 0).val = (q ⟨0, by decide⟩).val :=
  dot_S2048x64_S2048x64_S64x64_0_0_1_1_n_n.rhsIdx_val_of_single rfl i q
theorem rhs_tok_1 (i : S64x64.Idx) (q : dot_S2048x64_S2048x64_S64x64_0_0_1_1_n_n.contr.Idx) :
    (dot_S2048x64_S2048x64_S64x64_0_0_1_1_n_n.rhsIdx i q 1).val = (i 1).val := by
  unfold DotDims.rhsIdx
  rw [dif_neg (show ¬(1 : Fin S2048x64.rank) ∈ dot_S2048x64_S2048x64_S64x64_0_0_1_1_n_n.rhsBatch by decide), dif_pos (show (1 : Fin S2048x64.rank) ∈ dot_S2048x64_S2048x64_S64x64_0_0_1_1_n_n.rhsNonContracting by decide)]
  rfl

theorem lhs_inner_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_inner_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_inner_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_inner_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-! ## The three contractions as sums -/

/-- `x w^T` at `(s, e)`: the sum over the 1024 features of `x[s, d] * w[e, d]`. -/
theorem contract_features (x : FVec Ideal S2048x1024 .bf16) (w : FVec Ideal S64x1024 .bf16) (s : Fin 2048) (e : Fin 64) :
    matmul dot_S2048x1024_S64x1024_S2048x64_1_1_0_0_n_n none x w (constant S2048x64 .f32 0x00000000#32) (ix2 s e)
      = ∑ d : Fin 1024, x (ix2 s d) * w (ix2 e d) := by
  simp only [matmul]
  rw [Ideal.matmul_constant_zero_apply, ← Equiv.sum_comp (contrEquiv1 dot_S2048x1024_S64x1024_S2048x64_1_1_0_0_n_n 1024 rfl rfl).symm]
  refine Finset.sum_congr rfl fun k _ => ?_
  have hk := contrEquiv1_symm_val dot_S2048x1024_S64x1024_S2048x64_1_1_0_0_n_n 1024 rfl rfl k
  have el : dot_S2048x1024_S64x1024_S2048x64_1_1_0_0_n_n.lhsIdx (ix2 s e) ((contrEquiv1 dot_S2048x1024_S64x1024_S2048x64_1_1_0_0_n_n 1024 rfl rfl).symm k) = ix2 s k := funext fun a => Fin.ext (by
    match a with
    | ⟨0, _⟩ => exact lhs_feat_0 _ _
    | ⟨1, _⟩ => exact (lhs_feat_1 _ _).trans hk)
  have er : dot_S2048x1024_S64x1024_S2048x64_1_1_0_0_n_n.rhsIdx (ix2 s e) ((contrEquiv1 dot_S2048x1024_S64x1024_S2048x64_1_1_0_0_n_n 1024 rfl rfl).symm k) = ix2 e k := funext fun a => Fin.ext (by
    match a with
    | ⟨0, _⟩ => exact rhs_feat_0 _ _
    | ⟨1, _⟩ => exact (rhs_feat_1 _ _).trans hk)
  rw [el, er]

/-- `K^T V` at `(j, e)`: the sum over the 2048 tokens of `K[t, j] * V[t, e]`. -/
theorem contract_tokens (K V : FVec Ideal S2048x64 .bf16) (j e : Fin 64) :
    matmul dot_S2048x64_S2048x64_S64x64_0_0_1_1_n_n none K V (constant S64x64 .f32 0x00000000#32) (ix2 j e)
      = ∑ t : Fin 2048, K (ix2 t j) * V (ix2 t e) := by
  simp only [matmul]
  rw [Ideal.matmul_constant_zero_apply, ← Equiv.sum_comp (contrEquiv1 dot_S2048x64_S2048x64_S64x64_0_0_1_1_n_n 2048 rfl rfl).symm]
  refine Finset.sum_congr rfl fun k _ => ?_
  have hk := contrEquiv1_symm_val dot_S2048x64_S2048x64_S64x64_0_0_1_1_n_n 2048 rfl rfl k
  have el : dot_S2048x64_S2048x64_S64x64_0_0_1_1_n_n.lhsIdx (ix2 j e) ((contrEquiv1 dot_S2048x64_S2048x64_S64x64_0_0_1_1_n_n 2048 rfl rfl).symm k) = ix2 k j := funext fun a => Fin.ext (by
    match a with
    | ⟨0, _⟩ => exact (lhs_tok_0 _ _).trans hk
    | ⟨1, _⟩ => exact lhs_tok_1 _ _)
  have er : dot_S2048x64_S2048x64_S64x64_0_0_1_1_n_n.rhsIdx (ix2 j e) ((contrEquiv1 dot_S2048x64_S2048x64_S64x64_0_0_1_1_n_n 2048 rfl rfl).symm k) = ix2 k e := funext fun a => Fin.ext (by
    match a with
    | ⟨0, _⟩ => exact (rhs_tok_0 _ _).trans hk
    | ⟨1, _⟩ => exact rhs_tok_1 _ _)
  rw [el, er]

/-- `Q M` at `(s, e)`: the sum over the 64 inner features of `Q[s, j] * M[j, e]`. -/
theorem contract_inner (Q : FVec Ideal S2048x64 .bf16) (M : FVec Ideal S64x64 .bf16) (s : Fin 2048) (e : Fin 64) :
    matmul dot_S2048x64_S64x64_S2048x64_1_0_0_1_n_n none Q M (constant S2048x64 .f32 0x00000000#32) (ix2 s e)
      = ∑ j : Fin 64, Q (ix2 s j) * M (ix2 j e) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 s e) ((contrEquiv1 dot_S2048x64_S64x64_S2048x64_1_0_0_1_n_n 64 rfl rfl).symm k) = ix2 s k := funext fun a => Fin.ext (by
    match a with
    | ⟨0, _⟩ => exact lhs_inner_0 _ _
    | ⟨1, _⟩ => exact (lhs_inner_1 _ _).trans hk)
  have er : dot_S2048x64_S64x64_S2048x64_1_0_0_1_n_n.rhsIdx (ix2 s e) ((contrEquiv1 dot_S2048x64_S64x64_S2048x64_1_0_0_1_n_n 64 rfl rfl).symm k) = ix2 k e := funext fun a => Fin.ext (by
    match a with
    | ⟨0, _⟩ => exact (rhs_inner_0 _ _).trans hk
    | ⟨1, _⟩ => exact rhs_inner_1 _ _)
  rw [el, er]

/-! ## The layout steps around them -/

/-- A bias block `[1, 1, 64]` flattened to `[64]` reads, at `e`, the block at `(0, 0, e)`. -/
theorem bias_flat_apply (b : FVec Ideal S1x1x64 .f32) (e : Fin 64) :
    shapeCast S64 b shapeCasts_S1x1x64_S64 (ix1 e) = b (ix3 (0 : Fin 1) (0 : Fin 1) e) :=
  shapeCast_apply b shapeCasts_S1x1x64_S64 _ _ (by
    rw [Shape.rowMajor_val_three, Shape.rowMajor_val_one]
    show (0 * 1 + 0) * 64 + e.val = e.val
    omega)

/-- The bias as a row, repeated over the 2048 tokens, reads at `(s, e)` the block at `(0, 0, e)`. -/
theorem bias_rows_apply (b : FVec Ideal S1x1x64 .f32) (s : Fin 2048) (e : Fin 64) :
    broadcastTo S2048x64 (shapeCast S1x64 (shapeCast S64 b shapeCasts_S1x1x64_S64) shapeCasts_S64_S1x64) broadcasts_S1x64_S2048x64 (ix2 s e)
      = b (ix3 (0 : Fin 1) (0 : Fin 1) e) := by
  rw [broadcastTo_1b_ab_apply, shapeCast_a_1a_apply, bias_flat_apply]

/-- The scaled product `[2048, 64]` stored as a `[1, 1, 2048, 64]` block reads, at `(0, 0, s, e)`, the product at `(s, e)`. -/
theorem block_cast_apply (y : FVec Ideal S2048x64 .f32) (u0 u1 : Fin 1) (s : Fin 2048) (e : Fin 64) :
    shapeCast S1x1x2048x64 y shapeCasts_S2048x64_S1x1x2048x64 (ix4 u0 u1 s e) = y (ix2 s e) :=
  shapeCast_apply y shapeCasts_S2048x64_S1x1x2048x64 _ _ (by
    have h0 : u0.val = 0 := by omega
    have h1 : u1.val = 0 := by omega
    rw [Shape.rowMajor_val_two, Shape.rowMajor_val_four]
    show s.val * 64 + e.val = ((u0.val * 1 + u1.val) * 2048 + s.val) * 64 + e.val
    omega)

/-! ## The payload at an index -/

/-- One head's projection of one token, from the loaded blocks: `sum_d x[0, s, d] * w[0, e, d] + b[0, 0, e]`. -/
def projB (xb : Vec Ideal S1x2048x1024 .bf16) (wb : Vec Ideal S1x64x1024 .bf16) (bb : Vec Ideal S1x1x64 .f32)
    (s : Fin 2048) (e : Fin 64) : EReal :=
  (∑ d : Fin 1024, xb (ix3 (0 : Fin 1) s d) * wb (ix3 (0 : Fin 1) e d)) + bb (ix3 (0 : Fin 1) (0 : Fin 1) e)

/-- The unscaled product `q (k^T v)` of the loaded blocks at `(s, e)`. -/
theorem product_apply (v0 : Vec Ideal S1x2048x1024 .bf16) (v2 v4 v6 : Vec Ideal S1x64x1024 .bf16) (v8 v10 v12 : Vec Ideal S1x1x64 .f32)
    (s : Fin 2048) (e : Fin 64) :
    k0_pay2 v0 v2 v4 v6 v8 v10 v12 (ix2 s e)
      = ∑ j : Fin 64, projB v0 v2 v8 s j * ∑ t : Fin 2048, projB v0 v4 v10 t j * projB v0 v6 v12 t e := by
  unfold k0_pay2 projB
  rw [contract_inner]
  simp only [truncf_apply, addf_apply, contract_tokens, contract_features, bias_rows_apply, shapeCast_1ab_ab_apply]

/-- The stored block at `(0, 0, s, e)`: the product scaled by `1/8`. -/
theorem stored_apply (v31 : FVec Ideal S2048x64 .f32) (u0 u1 : Fin 1) (s : Fin 2048) (e : Fin 64) :
    k0_pay1 v31 (ix4 u0 u1 s e) = v31 (ix2 s e) * scale := by
  unfold k0_pay1
  rw [block_cast_apply]
  rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- What the body leaves in the output block, from the seven loaded blocks, at `(0, 0, s, e)`. -/
theorem out_block_apply (x0 : Vec Ideal S1x2048x1024 .bf16) (x1 x2 x3 : Vec Ideal S1x64x1024 .bf16) (x4 x5 x6 : Vec Ideal S1x1x64 .f32)
    (u0 u1 : Fin 1) (s : Fin 2048) (e : Fin 64) :
    out0_7 x0 x1 x2 x3 x4 x5 x6 (ix4 u0 u1 s e)
      = mixK (projB x0 x1 x4) (projB x0 x2 x5) (projB x0 x3 x6) scale s e := by
  unfold out0_7
  rw [View.canon_unit_zero hz4]
  simp only [View.ld_unit_zero (S := S1x2048x1024) hz3, View.ld_unit_zero (S := S1x64x1024) hz3, View.ld_unit_zero (S := S1x1x64) hz3]
  rw [stored_apply, product_apply]
  rfl

end Cert.KernelIdeal.Block

end
-- ==== Proof.KernelArray.lean ====
/-
  The attention kernel's whole run, read back as one array.

  The grid has 32 points, `t = 16 n + h` for batch entry `n` and head `h`. Before the region the host narrows the
  activations and the weights to bf16 (the identity on the extended reals) and inserts a unit axis into each bias.
  At point `t` the region stages `x[n]`, the three weight blocks and bias rows of head `h`, and writes block
  `(n, h)` of a `[2, 16, 2048, 64]` array; the 32 blocks tile that array, so after the run it is the
  `k^T v`-first arrangement `outK` of the seven arguments. The host then transposes tokens and heads and merges
  head and feature into one axis of 1024: the heads side by side.
-/
import proofs.«111868_j54915451847175_1_alg».proof.Proof.KernelBlock
import Idealize.ShloMosaic.Lib.StableHlo.Run

set_option maxRecDepth 16384

noncomputable section

namespace Cert.KernelIdeal.Whole

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)
open Cert.Proof.Attn (proj mixK outK scale)

variable (m : (ℓ : Loc nD τ sig) → Buf (Elt Ideal) ℓ) (ρ : Dev nD → PrngReg)

/-! ## The arrays as the region finds them -/

/-- The narrowed activations are the activations. -/
theorem entry_x (c : Dev nD) :
    (V m c main_v0 : S2x2048x1024.Idx → EReal) = (m ((c : Thread nD τ).loc main_arg0) : S2x2048x1024.Idx → EReal) := by
  show StableHlo.after hostOps0 (fun b => m (c, b)) (Proc.devRef .tc main_v0) = _
  after_results
  rfl
/-- The narrowed query weights are the query weights. -/
theorem entry_wq (c : Dev nD) :
    (V m c main_v1 : S16x64x1024.Idx → EReal) = (m ((c : Thread nD τ).loc main_arg1) : S16x64x1024.Idx → EReal) := by
  show StableHlo.after hostOps0 (fun b => m (c, b)) (Proc.devRef .tc main_v1) = _
  after_results
  rfl
/-- Likewise the key weights. -/
theorem entry_wk (c : Dev nD) :
    (V m c main_v2 : S16x64x1024.Idx → EReal) = (m ((c : Thread nD τ).loc main_arg2) : S16x64x1024.Idx → EReal) := by
  show StableHlo.after hostOps0 (fun b => m (c, b)) (Proc.devRef .tc main_v2) = _
  after_results
  rfl
/-- Likewise the value weights. -/
theorem entry_wv (c : Dev nD) :
    (V m c main_v3 : S16x64x1024.Idx → EReal) = (m ((c : Thread nD τ).loc main_arg3) : S16x64x1024.Idx → EReal) := by
  show StableHlo.after hostOps0 (fun b => m (c, b)) (Proc.devRef .tc main_v3) = _
  after_results
  rfl
/-- The query bias with a unit axis inserted reads, at `(h, 0, e)`, the bias at `(h, e)`. -/
theorem entry_bq (c : Dev nD) (h : Fin 16) (u : Fin 1) (e : Fin 64) :
    (V m c main_v4 : S16x1x64.Idx → EReal) (ix3 h u e) = (m ((c : Thread nD τ).loc main_arg4) : S16x64.Idx → EReal) (ix2 h e) := by
  have e0 : (V m c main_v4 : S16x1x64.Idx → EReal)
      = broadcastInDim S16x1x64 ![0, 2] bcast_S16x64_S16x1x64_0_2 (m ((c : Thread nD τ).loc main_arg4) : S16x64.Idx → EReal) := by
    show StableHlo.after hostOps0 (fun b => m (c, b)) (Proc.devRef .tc main_v4) = _
    after_results
  rw [e0]
  exact broadcastInDim_apply _ bcast_S16x64_S16x1x64_0_2 _ _ _ (fun a => match a with
    | ⟨0, _⟩ => by show h.val = if (16 : Nat) = 1 then 0 else h.val; rw [if_neg (by decide)]
    | ⟨1, _⟩ => by show e.val = if (64 : Nat) = 1 then 0 else e.val; rw [if_neg (by decide)])
/-- Likewise the key bias. -/
theorem entry_bk (c : Dev nD) (h : Fin 16) (u : Fin 1) (e : Fin 64) :
    (V m c main_v5 : S16x1x64.Idx → EReal) (ix3 h u e) = (m ((c : Thread nD τ).loc main_arg5) : S16x64.Idx → EReal) (ix2 h e) := by
  have e0 : (V m c main_v5 : S16x1x64.Idx → EReal)
      = broadcastInDim S16x1x64 ![0, 2] bcast_S16x64_S16x1x64_0_2 (m ((c : Thread nD τ).loc main_arg5) : S16x64.Idx → EReal) := by
    show StableHlo.after hostOps0 (fun b => m (c, b)) (Proc.devRef .tc main_v5) = _
    after_results
  rw [e0]
  exact broadcastInDim_apply _ bcast_S16x64_S16x1x64_0_2 _ _ _ (fun a => match a with
    | ⟨0, _⟩ => by show h.val = if (16 : Nat) = 1 then 0 else h.val; rw [if_neg (by decide)]
    | ⟨1, _⟩ => by show e.val = if (64 : Nat) = 1 then 0 else e.val; rw [if_neg (by decide)])
/-- Likewise the value bias. -/
theorem entry_bv (c : Dev nD) (h : Fin 16) (u : Fin 1) (e : Fin 64) :
    (V m c main_v6 : S16x1x64.Idx → EReal) (ix3 h u e) = (m ((c : Thread nD τ).loc main_arg6) : S16x64.Idx → EReal) (ix2 h e) := by
  have e0 : (V m c main_v6 : S16x1x64.Idx → EReal)
      = broadcastInDim S16x1x64 ![0, 2] bcast_S16x64_S16x1x64_0_2 (m ((c : Thread nD τ).loc main_arg6) : S16x64.Idx → EReal) := by
    show StableHlo.after hostOps0 (fun b => m (c, b)) (Proc.devRef .tc main_v6) = _
    after_results
  rw [e0]
  exact broadcastInDim_apply _ bcast_S16x64_S16x1x64_0_2 _ _ _ (fun a => match a with
    | ⟨0, _⟩ => by show h.val = if (16 : Nat) = 1 then 0 else h.val; rw [if_neg (by decide)]
    | ⟨1, _⟩ => by show e.val = if (64 : Nat) = 1 then 0 else e.val; rw [if_neg (by decide)])

/-! ## Which block each point stages: `t = 16 n + h` -/

theorem idx_x : ∀ t : Fin cfg0.N, win0_0.index t (0 : Fin 3) = t.val / 16 ∧ win0_0.index t (1 : Fin 3) = 0 ∧ win0_0.index t (2 : Fin 3) = 0 :=
  (by decide +kernel : ∀ t : Fin grid0.N, _)
theorem idx_wq : ∀ t : Fin cfg0.N, win0_1.index t (0 : Fin 3) = t.val % 16 ∧ win0_1.index t (1 : Fin 3) = 0 ∧ win0_1.index t (2 : Fin 3) = 0 :=
  (by decide +kernel : ∀ t : Fin grid0.N, _)
theorem idx_wk : ∀ t : Fin cfg0.N, win0_2.index t (0 : Fin 3) = t.val % 16 ∧ win0_2.index t (1 : Fin 3) = 0 ∧ win0_2.index t (2 : Fin 3) = 0 :=
  (by decide +kernel : ∀ t : Fin grid0.N, _)
theorem idx_wv : ∀ t : Fin cfg0.N, win0_3.index t (0 : Fin 3) = t.val % 16 ∧ win0_3.index t (1 : Fin 3) = 0 ∧ win0_3.index t (2 : Fin 3) = 0 :=
  (by decide +kernel : ∀ t : Fin grid0.N, _)
theorem idx_bq : ∀ t : Fin cfg0.N, win0_4.index t (0 : Fin 3) = t.val % 16 ∧ win0_4.index t (1 : Fin 3) = 0 ∧ win0_4.index t (2 : Fin 3) = 0 :=
  (by decide +kernel : ∀ t : Fin grid0.N, _)
theorem idx_bk : ∀ t : Fin cfg0.N, win0_5.index t (0 : Fin 3) = t.val % 16 ∧ win0_5.index t (1 : Fin 3) = 0 ∧ win0_5.index t (2 : Fin 3) = 0 :=
  (by decide +kernel : ∀ t : Fin grid0.N, _)
theorem idx_bv : ∀ t : Fin cfg0.N, win0_6.index t (0 : Fin 3) = t.val % 16 ∧ win0_6.index t (1 : Fin 3) = 0 ∧ win0_6.index t (2 : Fin 3) = 0 :=
  (by decide +kernel : ∀ t : Fin grid0.N, _)
theorem idx_o : ∀ t : Fin cfg0.N, win0_7.index t (0 : Fin 4) = t.val / 16 ∧ win0_7.index t (1 : Fin 4) = t.val % 16
    ∧ win0_7.index t (2 : Fin 4) = 0 ∧ win0_7.index t (3 : Fin 4) = 0 :=
  (by decide +kernel : ∀ t : Fin grid0.N, _)

/-! ## The staged blocks as entries of the arguments -/

theorem xblk_apply (c : Dev nD) (t : Fin cfg0.N) (u : Fin 1) (s : Fin 2048) (d : Fin 1024) (n : Fin 2) (hn : n.val = t.val / 16) :
    (iblk m c 0 t : Vec Ideal S1x2048x1024 .bf16) (ix3 u s d) = (m ((c : Thread nD τ).loc main_arg0) : S2x2048x1024.Idx → EReal) (ix3 n s d) := by
  obtain ⟨e0, e1, e2⟩ := idx_x t
  unfold iblk
  rw [View.read_apply]
  show (V m c main_v0 : S2x2048x1024.Idx → EReal) _ = _
  rw [entry_x]
  refine congrArg _ (funext fun a => Fin.ext ?_)
  have hu : u.val < 1 := u.isLt
  match a with
  | ⟨0, _⟩ => show win0_0.index t (0 : Fin 3) * 1 + 1 * u.val = n.val; omega
  | ⟨1, _⟩ => show win0_0.index t (1 : Fin 3) * 2048 + 1 * s.val = s.val; omega
  | ⟨2, _⟩ => show win0_0.index t (2 : Fin 3) * 1024 + 1 * d.val = d.val; omega

theorem wqblk_apply (c : Dev nD) (t : Fin cfg0.N) (u : Fin 1) (e : Fin 64) (d : Fin 1024) (h : Fin 16) (hh : h.val = t.val % 16) :
    (iblk m c 1 t : Vec Ideal S1x64x1024 .bf16) (ix3 u e d) = (m ((c : Thread nD τ).loc main_arg1) : S16x64x1024.Idx → EReal) (ix3 h e d) := by
  obtain ⟨e0, e1, e2⟩ := idx_wq t
  unfold iblk
  rw [View.read_apply]
  show (V m c main_v1 : S16x64x1024.Idx → EReal) _ = _
  rw [entry_wq]
  refine congrArg _ (funext fun a => Fin.ext ?_)
  have hu : u.val < 1 := u.isLt
  match a with
  | ⟨0, _⟩ => show win0_1.index t (0 : Fin 3) * 1 + 1 * u.val = h.val; omega
  | ⟨1, _⟩ => show win0_1.index t (1 : Fin 3) * 64 + 1 * e.val = e.val; omega
  | ⟨2, _⟩ => show win0_1.index t (2 : Fin 3) * 1024 + 1 * d.val = d.val; omega
theorem wkblk_apply (c : Dev nD) (t : Fin cfg0.N) (u : Fin 1) (e : Fin 64) (d : Fin 1024) (h : Fin 16) (hh : h.val = t.val % 16) :
    (iblk m c 2 t : Vec Ideal S1x64x1024 .bf16) (ix3 u e d) = (m ((c : Thread nD τ).loc main_arg2) : S16x64x1024.Idx → EReal) (ix3 h e d) := by
  obtain ⟨e0, e1, e2⟩ := idx_wk t
  unfold iblk
  rw [View.read_apply]
  show (V m c main_v2 : S16x64x1024.Idx → EReal) _ = _
  rw [entry_wk]
  refine congrArg _ (funext fun a => Fin.ext ?_)
  have hu : u.val < 1 := u.isLt
  match a with
  | ⟨0, _⟩ => show win0_2.index t (0 : Fin 3) * 1 + 1 * u.val = h.val; omega
  | ⟨1, _⟩ => show win0_2.index t (1 : Fin 3) * 64 + 1 * e.val = e.val; omega
  | ⟨2, _⟩ => show win0_2.index t (2 : Fin 3) * 1024 + 1 * d.val = d.val; omega
theorem wvblk_apply (c : Dev nD) (t : Fin cfg0.N) (u : Fin 1) (e : Fin 64) (d : Fin 1024) (h : Fin 16) (hh : h.val = t.val % 16) :
    (iblk m c 3 t : Vec Ideal S1x64x1024 .bf16) (ix3 u e d) = (m ((c : Thread nD τ).loc main_arg3) : S16x64x1024.Idx → EReal) (ix3 h e d) := by
  obtain ⟨e0, e1, e2⟩ := idx_wv t
  unfold iblk
  rw [View.read_apply]
  show (V m c main_v3 : S16x64x1024.Idx → EReal) _ = _
  rw [entry_wv]
  refine congrArg _ (funext fun a => Fin.ext ?_)
  have hu : u.val < 1 := u.isLt
  match a with
  | ⟨0, _⟩ => show win0_3.index t (0 : Fin 3) * 1 + 1 * u.val = h.val; omega
  | ⟨1, _⟩ => show win0_3.index t (1 : Fin 3) * 64 + 1 * e.val = e.val; omega
  | ⟨2, _⟩ => show win0_3.index t (2 : Fin 3) * 1024 + 1 * d.val = d.val; omega
theorem bqblk_apply (c : Dev nD) (t : Fin cfg0.N) (u0 u1 : Fin 1) (e : Fin 64) (h : Fin 16) (hh : h.val = t.val % 16) :
    (iblk m c 4 t : Vec Ideal S1x1x64 .f32) (ix3 u0 u1 e) = (m ((c : Thread nD τ).loc main_arg4) : S16x64.Idx → EReal) (ix2 h e) := by
  obtain ⟨e0, e1, e2⟩ := idx_bq t
  unfold iblk
  rw [View.read_apply]
  show (V m c main_v4 : S16x1x64.Idx → EReal) _ = _
  refine Eq.trans (congrArg _ (funext fun a => Fin.ext ?_)) (entry_bq m c h u1 e)
  have hu : u0.val < 1 := u0.isLt
  match a with
  | ⟨0, _⟩ => show win0_4.index t (0 : Fin 3) * 1 + 1 * u0.val = h.val; omega
  | ⟨1, _⟩ => show win0_4.index t (1 : Fin 3) * 1 + 1 * u1.val = u1.val; omega
  | ⟨2, _⟩ => show win0_4.index t (2 : Fin 3) * 64 + 1 * e.val = e.val; omega
theorem bkblk_apply (c : Dev nD) (t : Fin cfg0.N) (u0 u1 : Fin 1) (e : Fin 64) (h : Fin 16) (hh : h.val = t.val % 16) :
    (iblk m c 5 t : Vec Ideal S1x1x64 .f32) (ix3 u0 u1 e) = (m ((c : Thread nD τ).loc main_arg5) : S16x64.Idx → EReal) (ix2 h e) := by
  obtain ⟨e0, e1, e2⟩ := idx_bk t
  unfold iblk
  rw [View.read_apply]
  show (V m c main_v5 : S16x1x64.Idx → EReal) _ = _
  refine Eq.trans (congrArg _ (funext fun a => Fin.ext ?_)) (entry_bk m c h u1 e)
  have hu : u0.val < 1 := u0.isLt
  match a with
  | ⟨0, _⟩ => show win0_5.index t (0 : Fin 3) * 1 + 1 * u0.val = h.val; omega
  | ⟨1, _⟩ => show win0_5.index t (1 : Fin 3) * 1 + 1 * u1.val = u1.val; omega
  | ⟨2, _⟩ => show win0_5.index t (2 : Fin 3) * 64 + 1 * e.val = e.val; omega
theorem bvblk_apply (c : Dev nD) (t : Fin cfg0.N) (u0 u1 : Fin 1) (e : Fin 64) (h : Fin 16) (hh : h.val = t.val % 16) :
    (iblk m c 6 t : Vec Ideal S1x1x64 .f32) (ix3 u0 u1 e) = (m ((c : Thread nD τ).loc main_arg6) : S16x64.Idx → EReal) (ix2 h e) := by
  obtain ⟨e0, e1, e2⟩ := idx_bv t
  unfold iblk
  rw [View.read_apply]
  show (V m c main_v6 : S16x1x64.Idx → EReal) _ = _
  refine Eq.trans (congrArg _ (funext fun a => Fin.ext ?_)) (entry_bv m c h u1 e)
  have hu : u0.val < 1 := u0.isLt
  match a with
  | ⟨0, _⟩ => show win0_6.index t (0 : Fin 3) * 1 + 1 * u0.val = h.val; omega
  | ⟨1, _⟩ => show win0_6.index t (1 : Fin 3) * 1 + 1 * u1.val = u1.val; omega
  | ⟨2, _⟩ => show win0_6.index t (2 : Fin 3) * 64 + 1 * e.val = e.val; omega

/-! ## What point `t` writes back -/

/-- The per-head result of the seven arguments, `k^T v` first. -/
abbrev result (c : Dev nD) : S2x16x2048x64.Idx → EReal :=
  outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The body's block at point `t = 16 n + h`, at `(0, 0, s, e)`, is the result at `(n, h, s, e)`: the staged blocks are
    batch entry `n` of the activations and head `h` of the weights and biases. -/
theorem out_point (c : Dev nD) (t : Fin cfg0.N) (u0 u1 : Fin 1) (s : Fin 2048) (e : Fin 64) (n : Fin 2) (h : Fin 16)
    (hn : n.val = t.val / 16) (hh : h.val = t.val % 16) :
    out0_7 (iblk m c 0 t) (iblk m c 1 t) (iblk m c 2 t) (iblk m c 3 t) (iblk m c 4 t) (iblk m c 5 t) (iblk m c 6 t) (ix4 u0 u1 s e)
      = result m c (ix4 n h s e) := by
  refine (out_block_apply (iblk m c 0 t) (iblk m c 1 t) (iblk m c 2 t) (iblk m c 3 t) (iblk m c 4 t) (iblk m c 5 t) (iblk m c 6 t) u0 u1 s e).trans ?_
  have hq : projB (iblk m c 0 t) (iblk m c 1 t) (iblk m c 4 t) = proj (m ((c : Thread nD τ).loc main_arg0)) (m ((c : Thread nD τ).loc main_arg1)) (m ((c : Thread nD τ).loc main_arg4)) n h :=
    funext fun s' => funext fun j => by
      unfold projB proj
      rw [bqblk_apply m c t 0 0 j h hh]
      exact congrArg (· + _) (Finset.sum_congr rfl fun d _ => by rw [xblk_apply m c t 0 s' d n hn, wqblk_apply m c t 0 j d h hh])
  have hk : projB (iblk m c 0 t) (iblk m c 2 t) (iblk m c 5 t) = proj (m ((c : Thread nD τ).loc main_arg0)) (m ((c : Thread nD τ).loc main_arg2)) (m ((c : Thread nD τ).loc main_arg5)) n h :=
    funext fun s' => funext fun j => by
      unfold projB proj
      rw [bkblk_apply m c t 0 0 j h hh]
      exact congrArg (· + _) (Finset.sum_congr rfl fun d _ => by rw [xblk_apply m c t 0 s' d n hn, wkblk_apply m c t 0 j d h hh])
  have hv : projB (iblk m c 0 t) (iblk m c 3 t) (iblk m c 6 t) = proj (m ((c : Thread nD τ).loc main_arg0)) (m ((c : Thread nD τ).loc main_arg3)) (m ((c : Thread nD τ).loc main_arg6)) n h :=
    funext fun s' => funext fun j => by
      unfold projB proj
      rw [bvblk_apply m c t 0 0 j h hh]
      exact congrArg (· + _) (Finset.sum_congr rfl fun d _ => by rw [xblk_apply m c t 0 s' d n hn, wvblk_apply m c t 0 j d h hh])
  rw [hq, hk, hv]
  rfl

/-- What point `t` writes back is block `t` of the result. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  funext y
  obtain ⟨u0, u1, s, e, rfl⟩ : ∃ (u0 u1 : Fin 1) (s : Fin 2048) (e : Fin 64), y = ix4 u0 u1 s e := ⟨y 0, y 1, y 2, y 3, eq_ix4 y⟩
  obtain ⟨e0, e1, e2, e3⟩ := idx_o t
  have hN : cfg0.N = 32 := N_0
  have ht : t.val < 32 := hN ▸ t.isLt
  have hu0 : u0.val < 1 := u0.isLt
  have hu1 : u1.val < 1 := u1.isLt
  have hemb : ((cfg0.win 7).blk t).view.emb (ix4 u0 u1 s e) = ix4 (⟨t.val / 16, by omega⟩ : Fin 2) (⟨t.val % 16, by omega⟩ : Fin 16) s e :=
    funext fun a => Fin.ext (by
      match a with
      | ⟨0, _⟩ => show win0_7.index t (0 : Fin 4) * 1 + 1 * u0.val = t.val / 16; omega
      | ⟨1, _⟩ => show win0_7.index t (1 : Fin 4) * 1 + 1 * u1.val = t.val % 16; omega
      | ⟨2, _⟩ => show win0_7.index t (2 : Fin 4) * 2048 + 1 * s.val = s.val; omega
      | ⟨3, _⟩ => show win0_7.index t (3 : Fin 4) * 64 + 1 * e.val = e.val; omega)
  show out0_7 (iblk m c 0 t) (iblk m c 1 t) (iblk m c 2 t) (iblk m c 3 t) (iblk m c 4 t) (iblk m c 5 t) (iblk m c 6 t) (ix4 u0 u1 s e)
    = result m c (((cfg0.win 7).blk t).view.emb (ix4 u0 u1 s e))
  rw [hemb]
  exact out_point m c t u0 u1 s e _ _ rfl rfl

/-- Every index of the `[2, 16, 2048, 64]` array lies in the block of the point `16 n + h` of its first two coordinates. -/
theorem cover (i : S2x16x2048x64.Idx) : ∃ t : Fin cfg0.N, (cfg0.win 7).flush t = true ∧ i ∈ ((cfg0.win 7).blk t).view.set := by
  have hN : cfg0.N = 32 := N_0
  have h0 : (i 0).val < 2 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 16 + (i 1).val := ⟨⟨(i 0).val * 16 + (i 1).val, by omega⟩, rfl⟩
  obtain ⟨e0, e1, e2, e3⟩ := idx_o t
  refine ⟨t, flush0_7 t, ?_⟩
  show i ∈ ((View.whole main_v7).slice (win0_7.rect t)).set
  rw [View.set_slice_whole, Rect.mem_set_unit]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 2048 ≤ (i 2).val ∧ (i 2).val < win0_7.index t (2 : Fin 4) * 2048 + 2048; omega
  | ⟨3, _⟩ => show win0_7.index t (3 : Fin 4) * 64 ≤ (i 3).val ∧ (i 3).val < win0_7.index t (3 : Fin 4) * 64 + 64; omega

/-- After the region the per-head array is the result. -/
theorem final (c : Dev nD) : (dats m 0 c).arrAt 7 cfg0.N = result m c :=
  (dats m 0 c).arrAt_eq_of_cover 7 (result m c) (fun t _ => flushed_eq m c t) cover

/-! ## The closing host lines: the heads side by side -/

/-- Tokens and heads transposed, then head and feature merged into one axis of 1024. -/
def heads (X : S2x16x2048x64.Idx → EReal) : S2x2048x1024.Idx → EReal :=
  shapeCast S2x2048x1024 (transpose S2x2048x16x64 [0, 2, 1, 3] X transposes_S2x16x2048x64_S2x2048x16x64_0_2_1_3) shapeCasts_S2x2048x16x64_S2x2048x1024

/-- What the program returns. -/
theorem returned (c : Dev nD) :
    (Pipeline.afterTail₀ cfgs (dats m) 0 (V0 m) [hostOps1] c main_v9 : S2x2048x1024.Idx → EReal) = heads (result m c) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v7) = result m c :=
    (Pipeline.withArrays_arr spec0 launch0.win.arr_inj c _ _ 7).trans (final m c)
  refine Eq.trans ?_ (congrArg heads hw)
  rfl

/-! ## The run, read -/

/-- Every weakly fair execution terminates with the returned array at the heads of the result side by side, the
    seven arguments unchanged. -/
theorem run : θ_run defs (onTc (τ := τ) (main (F := Ideal))) ⟨m, fun _ => 0, ρ⟩ fun r => ∀ c : Dev nD,
      r.2.mem ((c.tc : Thread nD τ).loc main_v9) = heads (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v9 (Pipeline.mem_restRefs_of main_v9 (by decide) (by decide))).trans (returned m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefStages.lean ====
/-
  The reference's per-head result, before its closing transpose and reshape, is the scores-first arrangement
  `sum_t ((sum_j q[s, j] * k[t, j]) * (1/8)) * v[t, e]` of the projections `q, k, v = x W^T + b`: each stage of the
  host program is read at an index, the einsum's `W[h, e, d] * x[n, s, d]` commuted into `x[n, s, d] * W[h, e, d]`.
-/
import proofs.«111868_j54915451847175_1_alg».proof.Proof.Gen.ReferenceIdeal.Read
import proofs.«111868_j54915451847175_1_alg».proof.Proof.AttnSpec
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.TcCoe Idealize.ShloMosaic.ValueIdx
open Cert.Proof.Attn (proj mixR outR scale)

/-- The queries: the einsum with `Wq`, transposed to `[batch, head, token, feature]`, plus the broadcast bias. -/
theorem queries_apply (x0 : FVec Ideal S2x2048x1024 .f32) (x1 : FVec Ideal S16x64x1024 .f32) (x4 : FVec Ideal S16x64 .f32)
    (n : Fin 2) (h : Fin 16) (s : Fin 2048) (e : Fin 64) :
    val_main_v4 (F := Ideal) x0 x1 x4 (ix4 n h s e) = proj x0 x1 x4 n h s e := by
  rw [val_main_v4_apply, val_main_v1_apply, val_main_v0_apply, val_main_v3_apply, val_main_v2_apply]
  unfold proj
  rw [Ideal.addf_def]
  refine congrArg₂ (· + ·) (Finset.sum_congr rfl fun d _ => ?_) ?_
  · rw [mul_comm]
    refine congrArg₂ (· * ·) (congrArg x0 ?_) (congrArg x1 ?_)
    · exact (funext fun a => Fin.ext (by match a with | ⟨0, _⟩ => rfl | ⟨1, _⟩ => rfl | ⟨2, _⟩ => rfl))
    · exact (funext fun a => Fin.ext (by match a with | ⟨0, _⟩ => rfl | ⟨1, _⟩ => rfl | ⟨2, _⟩ => rfl))
  · exact congrArg x4 (funext fun a => Fin.ext (by match a with | ⟨0, _⟩ => rfl | ⟨1, _⟩ => rfl))

/-- The keys, likewise with `Wk` and `bk`. -/
theorem keys_apply (x0 : FVec Ideal S2x2048x1024 .f32) (x2 : FVec Ideal S16x64x1024 .f32) (x5 : FVec Ideal S16x64 .f32)
    (n : Fin 2) (h : Fin 16) (s : Fin 2048) (e : Fin 64) :
    val_main_v9 (F := Ideal) x0 x2 x5 (ix4 n h s e) = proj x0 x2 x5 n h s e := by
  rw [val_main_v9_apply, val_main_v6_apply, val_main_v5_apply, val_main_v8_apply, val_main_v7_apply]
  unfold proj
  rw [Ideal.addf_def]
  refine congrArg₂ (· + ·) (Finset.sum_congr rfl fun d _ => ?_) ?_
  · rw [mul_comm]
    refine congrArg₂ (· * ·) (congrArg x0 ?_) (congrArg x2 ?_)
    · exact (funext fun a => Fin.ext (by match a with | ⟨0, _⟩ => rfl | ⟨1, _⟩ => rfl | ⟨2, _⟩ => rfl))
    · exact (funext fun a => Fin.ext (by match a with | ⟨0, _⟩ => rfl | ⟨1, _⟩ => rfl | ⟨2, _⟩ => rfl))
  · exact congrArg x5 (funext fun a => Fin.ext (by match a with | ⟨0, _⟩ => rfl | ⟨1, _⟩ => rfl))

/-- The values, likewise with `Wv` and `bv`. -/
theorem values_apply (x0 : FVec Ideal S2x2048x1024 .f32) (x3 : FVec Ideal S16x64x1024 .f32) (x6 : FVec Ideal S16x64 .f32)
    (n : Fin 2) (h : Fin 16) (s : Fin 2048) (e : Fin 64) :
    val_main_v14 (F := Ideal) x0 x3 x6 (ix4 n h s e) = proj x0 x3 x6 n h s e := by
  rw [val_main_v14_apply, val_main_v11_apply, val_main_v10_apply, val_main_v13_apply, val_main_v12_apply]
  unfold proj
  rw [Ideal.addf_def]
  refine congrArg₂ (· + ·) (Finset.sum_congr rfl fun d _ => ?_) ?_
  · rw [mul_comm]
    refine congrArg₂ (· * ·) (congrArg x0 ?_) (congrArg x3 ?_)
    · exact (funext fun a => Fin.ext (by match a with | ⟨0, _⟩ => rfl | ⟨1, _⟩ => rfl | ⟨2, _⟩ => rfl))
    · exact (funext fun a => Fin.ext (by match a with | ⟨0, _⟩ => rfl | ⟨1, _⟩ => rfl | ⟨2, _⟩ => rfl))
  · exact congrArg x6 (funext fun a => Fin.ext (by match a with | ⟨0, _⟩ => rfl | ⟨1, _⟩ => rfl))

/-- The scaled scores at `(n, h, s, t)`: `(sum_j q[s, j] * k[t, j]) * (1/8)`. -/
theorem scores_apply (x0 : FVec Ideal S2x2048x1024 .f32) (x1 x2 : FVec Ideal S16x64x1024 .f32) (x4 x5 : FVec Ideal S16x64 .f32)
    (n : Fin 2) (h : Fin 16) (s t : Fin 2048) :
    val_main_v17 (F := Ideal) x0 x1 x2 x4 x5 (ix4 n h s t)
      = (∑ j : Fin 64, proj x0 x1 x4 n h s j * proj x0 x2 x5 n h t j) * scale := by
  rw [val_main_v17_apply, val_main_v15_apply, val_main_v16_apply, val_main_cst_apply, Ideal.mulf_def]
  refine congrArg₂ (· * ·) (Finset.sum_congr rfl fun j _ => ?_) rfl
  have el : lidx_main_v15 (ix4 n h s t) j = ix4 n h s j := (funext fun a => Fin.ext (by match a with | ⟨0, _⟩ => rfl | ⟨1, _⟩ => rfl | ⟨2, _⟩ => rfl | ⟨3, _⟩ => rfl))
  have er : ridx_main_v15 (ix4 n h s t) j = ix4 n h t j := (funext fun a => Fin.ext (by match a with | ⟨0, _⟩ => rfl | ⟨1, _⟩ => rfl | ⟨2, _⟩ => rfl | ⟨3, _⟩ => rfl))
  rw [el, er, queries_apply, keys_apply]

/-- The reference's per-head result is the scores-first arrangement of the seven arrays. -/
theorem result_eq (x0 : FVec Ideal S2x2048x1024 .f32) (x1 x2 x3 : FVec Ideal S16x64x1024 .f32) (x4 x5 x6 : FVec Ideal S16x64 .f32) :
    val_main_v18 (F := Ideal) x0 x1 x2 x3 x4 x5 x6 = outR x0 x1 x2 x3 x4 x5 x6 := by
  funext i
  obtain ⟨n, h, s, e, rfl⟩ : ∃ (n : Fin 2) (h : Fin 16) (s : Fin 2048) (e : Fin 64), i = ix4 n h s e := ⟨i 0, i 1, i 2, i 3, eq_ix4 i⟩
  rw [val_main_v18_apply]
  unfold outR mixR
  refine Finset.sum_congr rfl fun t _ => ?_
  have el : lidx_main_v18 (ix4 n h s e) t = ix4 n h s t := (funext fun a => Fin.ext (by match a with | ⟨0, _⟩ => rfl | ⟨1, _⟩ => rfl | ⟨2, _⟩ => rfl | ⟨3, _⟩ => rfl))
  have er : ridx_main_v18 (ix4 n h s e) t = ix4 n h t e := (funext fun a => Fin.ext (by match a with | ⟨0, _⟩ => rfl | ⟨1, _⟩ => rfl | ⟨2, _⟩ => rfl | ⟨3, _⟩ => rfl))
  rw [el, er, scores_apply, values_apply]

end Cert.ReferenceIdeal.Stages

end
-- ==== Proof.lean ====
/-
  Multi-head linear attention without a softmax: a Pallas kernel over a grid of (batch entry, head) against its jnp
  reference, equal on the extended reals for finite inputs.

  Both programs project the activations per head, `q, k, v = x W^T + b`, and return, heads side by side,
  `out[s, e] = sum_t ((sum_j q[s, j] * k[t, j]) / 8) * v[t, e]`. The reference forms the 2048 x 2048 scores first;
  the kernel forms the 64 x 64 matrix `k^T v` first and scales last, `(sum_j q[s, j] * (sum_t k[t, j] * v[t, e])) / 8`.
  Over the reals the two agree: the products distribute over the finite sums and the two sums commute. On the extended
  reals that law needs every factor finite, which is what the precondition gives: every input entry is a real number,
  so every projection is, and `1/8` is the same binary32 word in both programs. The kernel's narrowing of its operands
  to bf16 is the identity on the extended reals, and a matrix product into a zero accumulator is the plain sum.

  `Proof/AttnSpec.lean` states the two arrangements and the law; `Proof/FiniteInputs.lean` reads the precondition;
  `Proof/KernelBlock.lean` and `Proof/KernelArray.lean` read the kernel's run as the `k^T v`-first array;
  `Proof/RefStages.lean` reads the reference, stage by stage, as the scores-first array. The idealized kernel differs
  from the printed one by no rewrite, so `preserves` has nothing to state.
-/
import proofs.«111868_j54915451847175_1_alg».proof.Defs
import proofs.«111868_j54915451847175_1_alg».proof.Proof.Gen.Kernel
import proofs.«111868_j54915451847175_1_alg».proof.Proof.Gen.Kernel.Frame
import proofs.«111868_j54915451847175_1_alg».proof.Proof.Gen.KernelIdeal
import proofs.«111868_j54915451847175_1_alg».proof.Proof.Gen.KernelIdeal.Frame
import proofs.«111868_j54915451847175_1_alg».proof.Proof.Gen.ReferenceIdeal
import proofs.«111868_j54915451847175_1_alg».proof.Proof.Gen.ReferenceIdeal.Run
import proofs.«111868_j54915451847175_1_alg».proof.Proof.Gen.ReferenceIdeal.Read
import proofs.«111868_j54915451847175_1_alg».proof.Proof.Gen.Pre_finite_inputs
import proofs.«111868_j54915451847175_1_alg».proof.Proof.AttnSpec
import proofs.«111868_j54915451847175_1_alg».proof.Proof.FiniteInputs
import proofs.«111868_j54915451847175_1_alg».proof.Proof.KernelArray
import proofs.«111868_j54915451847175_1_alg».proof.Proof.RefStages
import Idealize.ShloMosaic.Adequacy
import Idealize.ShloMosaic.Init

noncomputable section

namespace Cert.Proof

open Idealize.ShloMosaic Idealize.SL.Sem

/-- The printed kernel runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- The reference's closing transpose and reshape are the kernel's: heads side by side. -/
theorem reference_heads (x0 : FVec Ideal Cert.ReferenceIdeal.S2x2048x1024 .f32) (x1 x2 x3 : FVec Ideal Cert.ReferenceIdeal.S16x64x1024 .f32)
    (x4 x5 x6 : FVec Ideal Cert.ReferenceIdeal.S16x64 .f32) :
    Cert.ReferenceIdeal.Read.val_main_v20 (F := Ideal) x0 x1 x2 x3 x4 x5 x6
      = Cert.KernelIdeal.Whole.heads (Cert.ReferenceIdeal.Read.val_main_v18 (F := Ideal) x0 x1 x2 x3 x4 x5 x6) := rfl

/-- From memories agreeing on finite arguments both programs end at one array: the kernel's `k^T v`-first result
    is the reference's scores-first result by the law for real data, under the same closing layout. -/
theorem algebraic : Cert.algebraic_KernelIdeal_ReferenceIdeal := by
  intro m ρ m' ρ' hpre hagree
  refine ⟨fun c => Cert.KernelIdeal.Whole.heads (Cert.KernelIdeal.Whole.result m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨r0, r1, r2, r3, r4, r5, r6⟩ := Cert.Proof.FiniteInputs.real_of_pre _ _ _ _ _ _ _ (hpre c)
  rw [a0, a1, a2, a3, a4, a5, a6]
  refine (Cert.ReferenceIdeal.Read.val_main_v20_eq _ _ _ _ _ _ _).trans ?_
  refine (reference_heads _ _ _ _ _ _ _).trans ?_
  exact congrArg Cert.KernelIdeal.Whole.heads
    ((Cert.ReferenceIdeal.Stages.result_eq _ _ _ _ _ _ _).trans (Cert.Proof.Attn.outK_eq_outR r0 r1 r2 r3 r4 r5 r6).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
